-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x2 : Shape := ⟨2, ![8, 2]⟩
abbrev S3x128x128 : Shape := ⟨3, ![3, 128, 128]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x2 : S_.BroadcastsInDim S8x2 (![] : Fin 0 → Fin S8x2.rank)
  reducesTo_S8x2_S_d0_1 : S8x2.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : FVec F S8x2 .f32) (main_arg2 : FVec F S3x128x128 .f32) (main_arg3 : FVec F S128 .f32) (main_arg4 : FVec F S128x128 .f32) (main_arg5 : IVec S1600000 32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x2 .f32 := Host.absf main_arg1
  let main_cst_0 : FVec F S_ .f32 := constant S_ .f32 0x7F800000#32
  let main_v5 : FVec F S8x2 .f32 := broadcastInDim S8x2 ![] bcast_S_S8x2 main_cst_0
  let main_v6 : IVec S8x2 1 := cmpf .olt main_v4 main_v5
  let main_c_1 : IVec S_ 1 := constantI S_ 1 1#1
  let main_v7 : IVec S_ 1 := (fun x v => Host.reduce IntOp.andi x v reducesTo_S8x2_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S8x2 : Shape := ⟨2, ![8, 2]⟩
abbrev S3x128x128 : Shape := ⟨3, ![3, 128, 128]⟩
abbrev S128 : Shape := ⟨1, ![128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x2 : Shape := ⟨2, ![1600000, 2]⟩
abbrev S100000x384 : Shape := ⟨2, ![100000, 384]⟩
abbrev S384x128 : Shape := ⟨2, ![384, 128]⟩
abbrev S1x128 : Shape := ⟨2, ![1, 128]⟩
abbrev S4000x384 : Shape := ⟨2, ![4000, 384]⟩
abbrev S4000x128 : Shape := ⟨2, ![4000, 128]⟩

abbrev nBuf : Space → Nat
  | .hbm => 44
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S8x2, .f32⟩
  | .hbm, ⟨2, _⟩ => ⟨S3x128x128, .f32⟩
  | .hbm, ⟨3, _⟩ => ⟨S128, .f32⟩
  | .hbm, ⟨4, _⟩ => ⟨S128x128, .f32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1600000x1, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x384, .f32⟩
  | .hbm, ⟨41, _⟩ => ⟨S384x128, .f32⟩
  | .hbm, ⟨42, _⟩ => ⟨S1x128, .f32⟩
  | .hbm, ⟨43, _⟩ => ⟨S100000x128, .f32⟩
  | .local _ .vmem, ⟨0, _⟩ => ⟨S4000x384, .f32⟩
  | .local _ .vmem, ⟨1, _⟩ => ⟨S4000x384, .f32⟩
  | .local _ .vmem, ⟨2, _⟩ => ⟨S384x128, .f32⟩
  | .local _ .vmem, ⟨3, _⟩ => ⟨S4000x128, .f32⟩
  | .local _ .vmem, ⟨4, _⟩ => ⟨S4000x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x2_S1600000x1_0_0 : S1600000x2.Slices ![0, 0] S1600000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S1600000x2_S1600000x1_0_1 : S1600000x2.Slices ![0, 1] S1600000x1
  concatenates_S100000x128_S100000x128_S100000x128_S100000x384_d1 : Shape.Concatenates [S100000x128, S100000x128, S100000x128] S100000x384 1
  shapeCasts_S3x128x128_S384x128 : S3x128x128.ShapeCasts S384x128
  shapeCasts_S128_S1x128 : S128.ShapeCasts S1x128
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  gather_S8x2_S1600000x1_S1600000x2_1_0_n_n_0_1_12_wf : GatherDims.WF S8x2 S1600000x1 S1600000x2 [1] [0] [] [0] [] 1 ![1, 2]
  scatter_S100000x128_S1600000x1_S1600000x128_1_0_0_1_wf : ScatterDims.WF S100000x128 S1600000x1 S1600000x128 [1] [0] [0] 1
  dot_S4000x384_S384x128_S4000x128_1_0_0_1_n_n_wf : DotDims.WF S4000x384 S384x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x384.size a ≤ S100000x384.size a
  hwx0_0 : ∀ i : grid0.Coords, EltTy.bits .f32 = 32 ∨ (Rect.block (s := S100000x384) S4000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S8x2_S1600000x1_S1600000x2_1_0_n_n_0_1_12 : GatherDims S8x2 S1600000x1 S1600000x2 where
  offsetDims := [1]
  collapsedSliceDims := [0]
  operandBatchingDims := []
  startIndicesBatchingDims := []
  startIndexMap := [0]
  indexVectorDim := 1
  sliceSizes := ![1, 2]
  wf := gather_S8x2_S1600000x1_S1600000x2_1_0_n_n_0_1_12_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v26) S4000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S8x2 : Shape := ⟨2, ![8, 2]⟩
abbrev S3x128x128 : Shape := ⟨3, ![3, 128, 128]⟩
abbrev S128 : Shape := ⟨1, ![128]⟩
abbrev S128x128 : Shape := ⟨2, ![128, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x2 : Shape := ⟨2, ![1600000, 2]⟩
abbrev S100000x384 : Shape := ⟨2, ![100000, 384]⟩
abbrev S384x128 : Shape := ⟨2, ![384, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8x2, .f32⟩
  | .hbm, ⟨2, _⟩ => ⟨S3x128x128, .f32⟩
  | .hbm, ⟨3, _⟩ => ⟨S128, .f32⟩
  | .hbm, ⟨4, _⟩ => ⟨S128x128, .f32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x2, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1600000x1, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x384, .f32⟩
  | .hbm, ⟨41, _⟩ => ⟨S384x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x2_S1600000x1_0_0 : S1600000x2.Slices ![0, 0] S1600000x1
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S1600000x2_S1600000x1_0_1 : S1600000x2.Slices ![0, 1] S1600000x1
  concatenates_S100000x128_S100000x128_S100000x128_S100000x384_d1 : Shape.Concatenates [S100000x128, S100000x128, S100000x128] S100000x384 1
  shapeCasts_S3x128x128_S384x128 : S3x128x128.ShapeCasts S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  gather_S8x2_S1600000x1_S1600000x2_1_0_n_n_0_1_12_wf : GatherDims.WF S8x2 S1600000x1 S1600000x2 [1] [0] [] [0] [] 1 ![1, 2]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S8x2_S1600000x1_S1600000x2_1_0_n_n_0_1_12 : GatherDims S8x2 S1600000x1 S1600000x2 where
  offsetDims := [1]
  collapsedSliceDims := [0]
  operandBatchingDims := []
  startIndicesBatchingDims := []
  startIndexMap := [0]
  indexVectorDim := 1
  sliceSizes := ![1, 2]
  wf := gather_S8x2_S1600000x1_S1600000x2_1_0_n_n_0_1_12_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BitsLaunch.lean ====
/-
  The dense epilogue launched over its 25 row blocks, at any float instance.

  Before its one region, @main prepares on the host what the region reads: the aggregated features — every node's
  own 128 features joined side by side with two 128-wide coefficient-weighted sums, over the edges arriving at the
  node, of the source nodes' features —, the three 128x128 weight slices stacked as one 384x128 matrix, and the bias
  laid as a 1x128 row. None of these operations writes an argument. The region then visits 25 blocks of 4000
  destination rows. At block t the body is handed rows 4000 t .. 4000 t + 3999 of the aggregated features and of the
  features, and the whole of the stacked weights, the self-loop weights and the bias row; it stores, over the whole
  4000x128 output block, ONE value computed from those five, and it reads nothing else and keeps nothing from one block
  to the next. The row blocks tile the arrays exactly (25 * 4000 = 100000), so no block overhangs.

  So the run ends, faults nowhere, returns every array the region only reads as it found it, and leaves in the output
  array, block by block, what the body stored there.
-/
import proofs.«139443_j3728031613523_1_alg».proof.Proof.Gen.Kernel.Launch
import proofs.«139443_j3728031613523_1_alg».proof.Proof.Gen.Kernel.Skeleton
import proofs.«139443_j3728031613523_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Epilogue

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- What each buffer of core c holds when the region is entered: the launch memory after the 35 host operations. -/
abbrev entry (c : Dev nD) (b : Ref sig .tc) : Buf (Elt F) ((c : Thread nD τ).loc b) :=
  StableHlo.after hostOps0 (fun b => m (c, b)) b

/-- No host operation allocates. -/
theorem host_fresh : (hostOps0 : List (HloOp τ sig (Elt F))).Forall fun op => op.fresh = ∅ := by
  simp only [List.Forall]; repeat' constructor

/-- @main is the host operations and then the region, which finds the buffers at entry. -/
theorem to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub host_fresh main_chain

/-- An argument is the result of no host operation, so the region finds it as launched. -/
theorem entry_of_arg (c : Dev nD) (a : Ref sig .tc)
    (h : (hostOps0 : List (HloOp τ sig (Elt F))).Forall fun op => Proc.devRef .tc a ∉ op.writes) :
    entry m c a = m ((c : Thread nD τ).loc a) :=
  StableHlo.after_of_forall_not_mem (b := Proc.devRef .tc a) _ _ (List.forall_iff_forall_mem.mp h)

theorem entry_arg0 (c : Dev nD) : entry m c main_arg0 = m ((c : Thread nD τ).loc main_arg0) :=
  entry_of_arg m c main_arg0 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg1 (c : Dev nD) : entry m c main_arg1 = m ((c : Thread nD τ).loc main_arg1) :=
  entry_of_arg m c main_arg1 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg2 (c : Dev nD) : entry m c main_arg2 = m ((c : Thread nD τ).loc main_arg2) :=
  entry_of_arg m c main_arg2 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg3 (c : Dev nD) : entry m c main_arg3 = m ((c : Thread nD τ).loc main_arg3) :=
  entry_of_arg m c main_arg3 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg4 (c : Dev nD) : entry m c main_arg4 = m ((c : Thread nD τ).loc main_arg4) :=
  entry_of_arg m c main_arg4 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg5 (c : Dev nD) : entry m c main_arg5 = m ((c : Thread nD τ).loc main_arg5) :=
  entry_of_arg m c main_arg5 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg6 (c : Dev nD) : entry m c main_arg6 = m ((c : Thread nD τ).loc main_arg6) :=
  entry_of_arg m c main_arg6 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg7 (c : Dev nD) : entry m c main_arg7 = m ((c : Thread nD τ).loc main_arg7) :=
  entry_of_arg m c main_arg7 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))

/-! ## The blocks the body is handed -/

/-- Window w's block at grid point t, cut out of its array as the region finds it. -/
def blockOf (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! An input's staging buffer holds the window's block at every point: where the point fetches it, because it was
    just fetched; where it does not (the three operands fetched once), because the block index has not moved since
    and the body leaves the buffer as it found it. -/

theorem staged0_of {c : Dev nD} (dat : Dat τ (Elt F) Unit ℕ (UR sig nD τ) ℕ cfg0 c)
    (hA : dat.A 0 = entry m c (Pipeline.arrRef spec0 0)) (hafter : ∀ t, dat.after 0 t = blockOf m c 0 t)
    (t : Fin cfg0.N) (d) : dat.before 0 t d = blockOf m c 0 t :=
  (dat.before_in_eq_fetched 0 rfl (fun _ => rfl) (fun _ _ _ => rfl)
    (fun t => by rw [hafter]; unfold Dat.blockOf blockOf; rw [hA]; try rfl) t d).trans
    (by unfold Dat.fetched Dat.blockOf blockOf; rw [hA]; try rfl)
theorem staged1_of {c : Dev nD} (dat : Dat τ (Elt F) Unit ℕ (UR sig nD τ) ℕ cfg0 c)
    (hA : dat.A 1 = entry m c (Pipeline.arrRef spec0 1)) (hafter : ∀ t, dat.after 1 t = blockOf m c 1 t)
    (t : Fin cfg0.N) (d) : dat.before 1 t d = blockOf m c 1 t :=
  (dat.before_in_eq_fetched 1 rfl (fun _ => rfl) (fun _ _ _ => rfl)
    (fun t => by rw [hafter]; unfold Dat.blockOf blockOf; rw [hA]; try rfl) t d).trans
    (by unfold Dat.fetched Dat.blockOf blockOf; rw [hA]; try rfl)
theorem staged2_of {c : Dev nD} (dat : Dat τ (Elt F) Unit ℕ (UR sig nD τ) ℕ cfg0 c)
    (hA : dat.A 2 = entry m c (Pipeline.arrRef spec0 2)) (hafter : ∀ t, dat.after 2 t = blockOf m c 2 t)
    (t : Fin cfg0.N) (d) : dat.before 2 t d = blockOf m c 2 t :=
  (dat.before_in_eq_fetched 2 rfl (fun _ => rfl) (fun _ _ _ => rfl)
    (fun t => by rw [hafter]; unfold Dat.blockOf blockOf; rw [hA]; try rfl) t d).trans
    (by unfold Dat.fetched Dat.blockOf blockOf; rw [hA]; try rfl)
theorem staged3_of {c : Dev nD} (dat : Dat τ (Elt F) Unit ℕ (UR sig nD τ) ℕ cfg0 c)
    (hA : dat.A 3 = entry m c (Pipeline.arrRef spec0 3)) (hafter : ∀ t, dat.after 3 t = blockOf m c 3 t)
    (t : Fin cfg0.N) (d) : dat.before 3 t d = blockOf m c 3 t :=
  (dat.before_in_eq_fetched 3 rfl (fun _ => rfl) (fun _ _ _ => rfl)
    (fun t => by rw [hafter]; unfold Dat.blockOf blockOf; rw [hA]; try rfl) t d).trans
    (by unfold Dat.fetched Dat.blockOf blockOf; rw [hA]; try rfl)
theorem staged4_of {c : Dev nD} (dat : Dat τ (Elt F) Unit ℕ (UR sig nD τ) ℕ cfg0 c)
    (hA : dat.A 4 = entry m c (Pipeline.arrRef spec0 4)) (hafter : ∀ t, dat.after 4 t = blockOf m c 4 t)
    (t : Fin cfg0.N) (d) : dat.before 4 t d = blockOf m c 4 t :=
  (dat.before_in_eq_fetched 4 rfl (fun _ => rfl) (fun _ _ _ => rfl)
    (fun t => by rw [hafter]; unfold Dat.blockOf blockOf; rw [hA]; try rfl) t d).trans
    (by unfold Dat.fetched Dat.blockOf blockOf; rw [hA]; try rfl)

/-! ## The arguments after the run -/

/-- From a run that ends with every array of the region at what the proof data computes and every other unscoped
    buffer as the region found it: the eight arguments end as launched. The features and the self-loop weights are
    arrays the region reads (windows 2 and 3), and an array only read keeps its entry contents; the other six the
    region never touches; and at entry each argument still held its launch contents. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 2).trans (((dats 0 c).arrAt_in 2 rfl _).trans ((hA c 2).trans (entry_arg0 m c))),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 3).trans (((dats 0 c).arrAt_in 3 rfl _).trans ((hA c 3).trans (entry_arg4 m c))),
     ((h c).2 main_arg5 (Pipeline.mem_restRefs_of main_arg5 (by decide) (by decide))).trans (entry_arg5 m c),
     ((h c).2 main_arg6 (Pipeline.mem_restRefs_of main_arg6 (by decide) (by decide))).trans (entry_arg6 m c),
     ((h c).2 main_arg7 (Pipeline.mem_restRefs_of main_arg7 (by decide) (by decide))).trans (entry_arg7 m c)⟩) h

/-! ## What the body stores -/

/-- The body reads each of its six buffers whole. -/
abbrev wholeAgg : Rect S4000x384 := Rect.unit (s := S4000x384) ![0, 0] S4000x384.size inb_S4000x384_S4000x384_0_0
abbrev wholeW : Rect S384x128 := Rect.unit (s := S384x128) ![0, 0] S384x128.size inb_S384x128_S384x128_0_0
abbrev wholeRows : Rect S4000x128 := Rect.unit (s := S4000x128) ![0, 0] S4000x128.size inb_S4000x128_S4000x128_0_0
abbrev wholeLoop : Rect S128x128 := Rect.unit (s := S128x128) ![0, 0] S128x128.size inb_S128x128_S128x128_0_0
abbrev wholeBias : Rect S1x128 := Rect.unit (s := S1x128) ![0, 0] S1x128.size inb_S1x128_S1x128_0_0

/-- The output block after the body: its single store, over the whole block, of the value the body computes from
    the aggregated-feature rows, the stacked weights, the feature rows, the self-loop weights and the bias row. -/
def stored (agg : Vec F S4000x384 .f32) (w : Vec F S384x128 .f32) (rows : Vec F S4000x128 .f32)
    (loop : Vec F S128x128 .f32) (bias : Vec F S1x128 .f32) : Vec F S4000x128 .f32 :=
  View.canon [⟨wholeRows, k0_pay1 (View.ld agg wholeAgg) (View.ld w wholeW) (View.ld rows wholeRows)
    (View.ld loop wholeLoop) (View.ld bias wholeBias)⟩]

/-- That one store covers the block. -/
theorem stored_covers (p : Vec F S4000x128 .f32) (y : S4000x128.Idx) :
    ∃ pc ∈ ([⟨wholeRows, p⟩] : List (View.Piece (Elt F) S4000x128 .f32)), y ∈ pc.1.set :=
  View.cover_of_tiled [⟨wholeRows, p⟩] S4000x128.size (by rfl) y

/-! ## The body at one point -/

set_option maxHeartbeats 1000000 in
/-- On six whole buffers, the five inputs at known contents and the output at any, the body ends with the inputs as
    they were and the output at stored of them. It loads the five inputs, loads the output block without using
    what it read, and stores once. -/
theorem body_runs (c : Dev nD) (E : Set ℕ) (i : grid0.Coords)
    (a1 : Memref sig .tc .vmem S4000x384 .f32) (h1 : a1.IsWhole) (a2 : Memref sig .tc .vmem S384x128 .f32) (h2 : a2.IsWhole)
    (a3 : Memref sig .tc .vmem S4000x128 .f32) (h3 : a3.IsWhole) (a4 : Memref sig .tc .vmem S128x128 .f32) (h4 : a4.IsWhole)
    (a5 : Memref sig .tc .vmem S1x128 .f32) (h5 : a5.IsWhole) (a6 : Memref sig .tc .vmem S4000x128 .f32) (h6 : a6.IsWhole)
    (x1 : Vec F S4000x384 .f32) (x2 : Vec F S384x128 .f32) (x3 : Vec F S4000x128 .f32) (x4 : Vec F S128x128 .f32)
    (x5 : Vec F S1x128 .f32) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ (∃ d, owns (c : Thread nD τ) a6 fullShare d)
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5
            ∗ owns (c : Thread nD τ) a6 fullShare (stored x1 x2 x3 x4 x5)) -∗ K ⟨⟩))
      ⊢ wp frame (wpE (defs₀ (F := F)) Variants.none c none) E
          (cc0__epilogue_kernel i a1 h1 a2 h2 a3 h3 a4 h4 a5 h5 a6 h6) K := by
  simp only [cc0__epilogue_kernel_eq_skeleton]; unfold cc0__epilogue_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The proof data -/

/-- On core c: the arrays as the region finds them; after the body at point t each input's buffer still at its
    block and the output's at stored of the five input blocks; the invariant the scoped rest and the generator
    register, untouched; full shares; nothing owed. -/
def dats (_ : Fin 1) (c : Dev nD) : Dat τ (Elt F) Unit ℕ (UR sig nD τ) ℕ cfg0 c where
  A w := entry m c (Pipeline.arrRef spec0 w)
  after w t := match w with
    | ⟨0, _⟩ => blockOf m c 0 t
    | ⟨1, _⟩ => blockOf m c 1 t
    | ⟨2, _⟩ => blockOf m c 2 t
    | ⟨3, _⟩ => blockOf m c 3 t
    | ⟨4, _⟩ => blockOf m c 4 t
    | ⟨5, _⟩ => stored (blockOf m c 0 t) (blockOf m c 1 t) (blockOf m c 2 t) (blockOf m c 3 t) (blockOf m c 4 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem left0 (c : Dev nD) (t : Fin cfg0.N) : (dats m 0 c).after 0 t = blockOf m c 0 t := by dsimp only [dats]
theorem left1 (c : Dev nD) (t : Fin cfg0.N) : (dats m 0 c).after 1 t = blockOf m c 1 t := by dsimp only [dats]
theorem left2 (c : Dev nD) (t : Fin cfg0.N) : (dats m 0 c).after 2 t = blockOf m c 2 t := by dsimp only [dats]
theorem left3 (c : Dev nD) (t : Fin cfg0.N) : (dats m 0 c).after 3 t = blockOf m c 3 t := by dsimp only [dats]
theorem left4 (c : Dev nD) (t : Fin cfg0.N) : (dats m 0 c).after 4 t = blockOf m c 4 t := by dsimp only [dats]
theorem left5 (c : Dev nD) (t : Fin cfg0.N) : (dats m 0 c).after 5 t
    = stored (blockOf m c 0 t) (blockOf m c 1 t) (blockOf m c 2 t) (blockOf m c 3 t) (blockOf m c 4 t) := by
  dsimp only [dats]

theorem found0 (c : Dev nD) (t : Fin cfg0.N) (d) : (dats m 0 c).before 0 t d = blockOf m c 0 t :=
  staged0_of m (dats m 0 c) (dats_A m c 0) (left0 m c) t d
theorem found1 (c : Dev nD) (t : Fin cfg0.N) (d) : (dats m 0 c).before 1 t d = blockOf m c 1 t :=
  staged1_of m (dats m 0 c) (dats_A m c 1) (left1 m c) t d
theorem found2 (c : Dev nD) (t : Fin cfg0.N) (d) : (dats m 0 c).before 2 t d = blockOf m c 2 t :=
  staged2_of m (dats m 0 c) (dats_A m c 2) (left2 m c) t d
theorem found3 (c : Dev nD) (t : Fin cfg0.N) (d) : (dats m 0 c).before 3 t d = blockOf m c 3 t :=
  staged3_of m (dats m 0 c) (dats_A m c 3) (left3 m c) t d
theorem found4 (c : Dev nD) (t : Fin cfg0.N) (d) : (dats m 0 c).before 4 t d = blockOf m c 4 t :=
  staged4_of m (dats m 0 c) (dats_A m c 4) (left4 m c) t d

/-! ## Every point -/

/-- What the pipeline hands the body at point t: the invariant, what the core owes, and the six current staging
    buffers, each at what the proof data says it holds before the body. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' buffers hold their blocks, so the body runs as body_runs says; the invariant and what
    the core owes pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4]
  rw [show (dats m 0 c).Φ t.succ = (dats m 0 c).Φ t.castSucc from rfl,
    show (dats m 0 c).owesAt () t.succ = (dats m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _
    (blockOf m c 0 t) (blockOf m c 1 t) (blockOf m c 2 t) (blockOf m c 3 t) (blockOf m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of @main ends; at the end every array of the region holds what the proof data
    computes (an array only read its entry contents, the output those overwritten block by block with what the body
    left), and every other unscoped buffer what it held at entry. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := entry m) (hmain := to_region m Variants.none) (hA := dats_A m) (hΦ := fun _ _ => rfl)

/-- The run ends with the eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_kept m ρ (dats m) (dats_A m) (run_main m ρ)

end Cert.Kernel.Epilogue

end
-- ==== Proof.IdealLaunch.lean ====
/-
  The dense epilogue launched over its 25 row blocks, at any float instance.

  Before its one region, @main prepares on the host what the region reads: the aggregated features — every node's
  own 128 features joined side by side with two 128-wide coefficient-weighted sums, over the edges arriving at the
  node, of the source nodes' features —, the three 128x128 weight slices stacked as one 384x128 matrix, and the bias
  laid as a 1x128 row. None of these operations writes an argument. The region then visits 25 blocks of 4000
  destination rows. At block t the body is handed rows 4000 t .. 4000 t + 3999 of the aggregated features and of the
  features, and the whole of the stacked weights, the self-loop weights and the bias row; it stores, over the whole
  4000x128 output block, ONE value computed from those five, and it reads nothing else and keeps nothing from one block
  to the next. The row blocks tile the arrays exactly (25 * 4000 = 100000), so no block overhangs.

  So the run ends, faults nowhere, returns every array the region only reads as it found it, and leaves in the output
  array, block by block, what the body stored there.
-/
import proofs.«139443_j3728031613523_1_alg».proof.Proof.Gen.KernelIdeal.Launch
import proofs.«139443_j3728031613523_1_alg».proof.Proof.Gen.KernelIdeal.Skeleton
import proofs.«139443_j3728031613523_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Epilogue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- What each buffer of core c holds when the region is entered: the launch memory after the 35 host operations. -/
abbrev entry (c : Dev nD) (b : Ref sig .tc) : Buf (Elt F) ((c : Thread nD τ).loc b) :=
  StableHlo.after hostOps0 (fun b => m (c, b)) b

/-- No host operation allocates. -/
theorem host_fresh : (hostOps0 : List (HloOp τ sig (Elt F))).Forall fun op => op.fresh = ∅ := by
  simp only [List.Forall]; repeat' constructor

/-- @main is the host operations and then the region, which finds the buffers at entry. -/
theorem to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub host_fresh main_chain

/-- An argument is the result of no host operation, so the region finds it as launched. -/
theorem entry_of_arg (c : Dev nD) (a : Ref sig .tc)
    (h : (hostOps0 : List (HloOp τ sig (Elt F))).Forall fun op => Proc.devRef .tc a ∉ op.writes) :
    entry m c a = m ((c : Thread nD τ).loc a) :=
  StableHlo.after_of_forall_not_mem (b := Proc.devRef .tc a) _ _ (List.forall_iff_forall_mem.mp h)

theorem entry_arg0 (c : Dev nD) : entry m c main_arg0 = m ((c : Thread nD τ).loc main_arg0) :=
  entry_of_arg m c main_arg0 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg1 (c : Dev nD) : entry m c main_arg1 = m ((c : Thread nD τ).loc main_arg1) :=
  entry_of_arg m c main_arg1 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg2 (c : Dev nD) : entry m c main_arg2 = m ((c : Thread nD τ).loc main_arg2) :=
  entry_of_arg m c main_arg2 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg3 (c : Dev nD) : entry m c main_arg3 = m ((c : Thread nD τ).loc main_arg3) :=
  entry_of_arg m c main_arg3 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg4 (c : Dev nD) : entry m c main_arg4 = m ((c : Thread nD τ).loc main_arg4) :=
  entry_of_arg m c main_arg4 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg5 (c : Dev nD) : entry m c main_arg5 = m ((c : Thread nD τ).loc main_arg5) :=
  entry_of_arg m c main_arg5 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg6 (c : Dev nD) : entry m c main_arg6 = m ((c : Thread nD τ).loc main_arg6) :=
  entry_of_arg m c main_arg6 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))
theorem entry_arg7 (c : Dev nD) : entry m c main_arg7 = m ((c : Thread nD τ).loc main_arg7) :=
  entry_of_arg m c main_arg7 (by
    simp only [hostOps0, List.Forall, StableHlo.nullary_writes, StableHlo.unary_writes, StableHlo.binary_writes,
      StableHlo.ternary_writes, StableHlo.nary_writes, StableHlo.reshape_writes, Finset.mem_singleton]
    repeat' apply And.intro
    all_goals exact StableHlo.devRef_ne_of_ne (by decide))

/-! ## The blocks the body is handed -/

/-- Window w's block at grid point t, cut out of its array as the region finds it. -/
def blockOf (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! An input's staging buffer holds the window's block at every point: where the point fetches it, because it was
    just fetched; where it does not (the three operands fetched once), because the block index has not moved since
    and the body leaves the buffer as it found it. -/

theorem staged0_of {c : Dev nD} (dat : Dat τ (Elt F) Unit ℕ (UR sig nD τ) ℕ cfg0 c)
    (hA : dat.A 0 = entry m c (Pipeline.arrRef spec0 0)) (hafter : ∀ t, dat.after 0 t = blockOf m c 0 t)
    (t : Fin cfg0.N) (d) : dat.before 0 t d = blockOf m c 0 t :=
  (dat.before_in_eq_fetched 0 rfl (fun _ => rfl) (fun _ _ _ => rfl)
    (fun t => by rw [hafter]; unfold Dat.blockOf blockOf; rw [hA]; try rfl) t d).trans
    (by unfold Dat.fetched Dat.blockOf blockOf; rw [hA]; try rfl)
theorem staged1_of {c : Dev nD} (dat : Dat τ (Elt F) Unit ℕ (UR sig nD τ) ℕ cfg0 c)
    (hA : dat.A 1 = entry m c (Pipeline.arrRef spec0 1)) (hafter : ∀ t, dat.after 1 t = blockOf m c 1 t)
    (t : Fin cfg0.N) (d) : dat.before 1 t d = blockOf m c 1 t :=
  (dat.before_in_eq_fetched 1 rfl (fun _ => rfl) (fun _ _ _ => rfl)
    (fun t => by rw [hafter]; unfold Dat.blockOf blockOf; rw [hA]; try rfl) t d).trans
    (by unfold Dat.fetched Dat.blockOf blockOf; rw [hA]; try rfl)
theorem staged2_of {c : Dev nD} (dat : Dat τ (Elt F) Unit ℕ (UR sig nD τ) ℕ cfg0 c)
    (hA : dat.A 2 = entry m c (Pipeline.arrRef spec0 2)) (hafter : ∀ t, dat.after 2 t = blockOf m c 2 t)
    (t : Fin cfg0.N) (d) : dat.before 2 t d = blockOf m c 2 t :=
  (dat.before_in_eq_fetched 2 rfl (fun _ => rfl) (fun _ _ _ => rfl)
    (fun t => by rw [hafter]; unfold Dat.blockOf blockOf; rw [hA]; try rfl) t d).trans
    (by unfold Dat.fetched Dat.blockOf blockOf; rw [hA]; try rfl)
theorem staged3_of {c : Dev nD} (dat : Dat τ (Elt F) Unit ℕ (UR sig nD τ) ℕ cfg0 c)
    (hA : dat.A 3 = entry m c (Pipeline.arrRef spec0 3)) (hafter : ∀ t, dat.after 3 t = blockOf m c 3 t)
    (t : Fin cfg0.N) (d) : dat.before 3 t d = blockOf m c 3 t :=
  (dat.before_in_eq_fetched 3 rfl (fun _ => rfl) (fun _ _ _ => rfl)
    (fun t => by rw [hafter]; unfold Dat.blockOf blockOf; rw [hA]; try rfl) t d).trans
    (by unfold Dat.fetched Dat.blockOf blockOf; rw [hA]; try rfl)
theorem staged4_of {c : Dev nD} (dat : Dat τ (Elt F) Unit ℕ (UR sig nD τ) ℕ cfg0 c)
    (hA : dat.A 4 = entry m c (Pipeline.arrRef spec0 4)) (hafter : ∀ t, dat.after 4 t = blockOf m c 4 t)
    (t : Fin cfg0.N) (d) : dat.before 4 t d = blockOf m c 4 t :=
  (dat.before_in_eq_fetched 4 rfl (fun _ => rfl) (fun _ _ _ => rfl)
    (fun t => by rw [hafter]; unfold Dat.blockOf blockOf; rw [hA]; try rfl) t d).trans
    (by unfold Dat.fetched Dat.blockOf blockOf; rw [hA]; try rfl)

/-! ## The arguments after the run -/

/-- From a run that ends with every array of the region at what the proof data computes and every other unscoped
    buffer as the region found it: the eight arguments end as launched. The features and the self-loop weights are
    arrays the region reads (windows 2 and 3), and an array only read keeps its entry contents; the other six the
    region never touches; and at entry each argument still held its launch contents. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 2).trans (((dats 0 c).arrAt_in 2 rfl _).trans ((hA c 2).trans (entry_arg0 m c))),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 3).trans (((dats 0 c).arrAt_in 3 rfl _).trans ((hA c 3).trans (entry_arg4 m c))),
     ((h c).2 main_arg5 (Pipeline.mem_restRefs_of main_arg5 (by decide) (by decide))).trans (entry_arg5 m c),
     ((h c).2 main_arg6 (Pipeline.mem_restRefs_of main_arg6 (by decide) (by decide))).trans (entry_arg6 m c),
     ((h c).2 main_arg7 (Pipeline.mem_restRefs_of main_arg7 (by decide) (by decide))).trans (entry_arg7 m c)⟩) h

/-! ## What the body stores -/

/-- The body reads each of its six buffers whole. -/
abbrev wholeAgg : Rect S4000x384 := Rect.unit (s := S4000x384) ![0, 0] S4000x384.size inb_S4000x384_S4000x384_0_0
abbrev wholeW : Rect S384x128 := Rect.unit (s := S384x128) ![0, 0] S384x128.size inb_S384x128_S384x128_0_0
abbrev wholeRows : Rect S4000x128 := Rect.unit (s := S4000x128) ![0, 0] S4000x128.size inb_S4000x128_S4000x128_0_0
abbrev wholeLoop : Rect S128x128 := Rect.unit (s := S128x128) ![0, 0] S128x128.size inb_S128x128_S128x128_0_0
abbrev wholeBias : Rect S1x128 := Rect.unit (s := S1x128) ![0, 0] S1x128.size inb_S1x128_S1x128_0_0

/-- The output block after the body: its single store, over the whole block, of the value the body computes from
    the aggregated-feature rows, the stacked weights, the feature rows, the self-loop weights and the bias row. -/
def stored (agg : Vec F S4000x384 .f32) (w : Vec F S384x128 .f32) (rows : Vec F S4000x128 .f32)
    (loop : Vec F S128x128 .f32) (bias : Vec F S1x128 .f32) : Vec F S4000x128 .f32 :=
  View.canon [⟨wholeRows, k0_pay1 (View.ld agg wholeAgg) (View.ld w wholeW) (View.ld rows wholeRows)
    (View.ld loop wholeLoop) (View.ld bias wholeBias)⟩]

/-- That one store covers the block. -/
theorem stored_covers (p : Vec F S4000x128 .f32) (y : S4000x128.Idx) :
    ∃ pc ∈ ([⟨wholeRows, p⟩] : List (View.Piece (Elt F) S4000x128 .f32)), y ∈ pc.1.set :=
  View.cover_of_tiled [⟨wholeRows, p⟩] S4000x128.size (by rfl) y

/-! ## The body at one point -/

set_option maxHeartbeats 1000000 in
/-- On six whole buffers, the five inputs at known contents and the output at any, the body ends with the inputs as
    they were and the output at stored of them. It loads the five inputs, loads the output block without using
    what it read, and stores once. -/
theorem body_runs (c : Dev nD) (E : Set ℕ) (i : grid0.Coords)
    (a1 : Memref sig .tc .vmem S4000x384 .f32) (h1 : a1.IsWhole) (a2 : Memref sig .tc .vmem S384x128 .f32) (h2 : a2.IsWhole)
    (a3 : Memref sig .tc .vmem S4000x128 .f32) (h3 : a3.IsWhole) (a4 : Memref sig .tc .vmem S128x128 .f32) (h4 : a4.IsWhole)
    (a5 : Memref sig .tc .vmem S1x128 .f32) (h5 : a5.IsWhole) (a6 : Memref sig .tc .vmem S4000x128 .f32) (h6 : a6.IsWhole)
    (x1 : Vec F S4000x384 .f32) (x2 : Vec F S384x128 .f32) (x3 : Vec F S4000x128 .f32) (x4 : Vec F S128x128 .f32)
    (x5 : Vec F S1x128 .f32) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ (∃ d, owns (c : Thread nD τ) a6 fullShare d)
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5
            ∗ owns (c : Thread nD τ) a6 fullShare (stored x1 x2 x3 x4 x5)) -∗ K ⟨⟩))
      ⊢ wp frame (wpE (defs₀ (F := F)) Variants.none c none) E
          (cc0__epilogue_kernel i a1 h1 a2 h2 a3 h3 a4 h4 a5 h5 a6 h6) K := by
  simp only [cc0__epilogue_kernel_eq_skeleton]; unfold cc0__epilogue_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The proof data -/

/-- On core c: the arrays as the region finds them; after the body at point t each input's buffer still at its
    block and the output's at stored of the five input blocks; the invariant the scoped rest and the generator
    register, untouched; full shares; nothing owed. -/
def dats (_ : Fin 1) (c : Dev nD) : Dat τ (Elt F) Unit ℕ (UR sig nD τ) ℕ cfg0 c where
  A w := entry m c (Pipeline.arrRef spec0 w)
  after w t := match w with
    | ⟨0, _⟩ => blockOf m c 0 t
    | ⟨1, _⟩ => blockOf m c 1 t
    | ⟨2, _⟩ => blockOf m c 2 t
    | ⟨3, _⟩ => blockOf m c 3 t
    | ⟨4, _⟩ => blockOf m c 4 t
    | ⟨5, _⟩ => stored (blockOf m c 0 t) (blockOf m c 1 t) (blockOf m c 2 t) (blockOf m c 3 t) (blockOf m c 4 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem left0 (c : Dev nD) (t : Fin cfg0.N) : (dats m 0 c).after 0 t = blockOf m c 0 t := by dsimp only [dats]
theorem left1 (c : Dev nD) (t : Fin cfg0.N) : (dats m 0 c).after 1 t = blockOf m c 1 t := by dsimp only [dats]
theorem left2 (c : Dev nD) (t : Fin cfg0.N) : (dats m 0 c).after 2 t = blockOf m c 2 t := by dsimp only [dats]
theorem left3 (c : Dev nD) (t : Fin cfg0.N) : (dats m 0 c).after 3 t = blockOf m c 3 t := by dsimp only [dats]
theorem left4 (c : Dev nD) (t : Fin cfg0.N) : (dats m 0 c).after 4 t = blockOf m c 4 t := by dsimp only [dats]
theorem left5 (c : Dev nD) (t : Fin cfg0.N) : (dats m 0 c).after 5 t
    = stored (blockOf m c 0 t) (blockOf m c 1 t) (blockOf m c 2 t) (blockOf m c 3 t) (blockOf m c 4 t) := by
  dsimp only [dats]

theorem found0 (c : Dev nD) (t : Fin cfg0.N) (d) : (dats m 0 c).before 0 t d = blockOf m c 0 t :=
  staged0_of m (dats m 0 c) (dats_A m c 0) (left0 m c) t d
theorem found1 (c : Dev nD) (t : Fin cfg0.N) (d) : (dats m 0 c).before 1 t d = blockOf m c 1 t :=
  staged1_of m (dats m 0 c) (dats_A m c 1) (left1 m c) t d
theorem found2 (c : Dev nD) (t : Fin cfg0.N) (d) : (dats m 0 c).before 2 t d = blockOf m c 2 t :=
  staged2_of m (dats m 0 c) (dats_A m c 2) (left2 m c) t d
theorem found3 (c : Dev nD) (t : Fin cfg0.N) (d) : (dats m 0 c).before 3 t d = blockOf m c 3 t :=
  staged3_of m (dats m 0 c) (dats_A m c 3) (left3 m c) t d
theorem found4 (c : Dev nD) (t : Fin cfg0.N) (d) : (dats m 0 c).before 4 t d = blockOf m c 4 t :=
  staged4_of m (dats m 0 c) (dats_A m c 4) (left4 m c) t d

/-! ## Every point -/

/-- What the pipeline hands the body at point t: the invariant, what the core owes, and the six current staging
    buffers, each at what the proof data says it holds before the body. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any point the inputs' buffers hold their blocks, so the body runs as body_runs says; the invariant and what
    the core owes pass through unread. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4]
  rw [show (dats m 0 c).Φ t.succ = (dats m 0 c).Φ t.castSucc from rfl,
    show (dats m 0 c).owesAt () t.succ = (dats m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _
    (blockOf m c 0 t) (blockOf m c 1 t) (blockOf m c 2 t) (blockOf m c 3 t) (blockOf m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of @main ends; at the end every array of the region holds what the proof data
    computes (an array only read its entry contents, the output those overwritten block by block with what the body
    left), and every other unscoped buffer what it held at entry. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := entry m) (hmain := to_region m Variants.none) (hA := dats_A m) (hΦ := fun _ _ => rfl)

/-- The run ends with the eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_kept m ρ (dats m) (dats_A m) (run_main m ρ)

end Cert.KernelIdeal.Epilogue

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«139443_j3728031613523_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.DenseSpec.lean ====
/-
  The dense epilogue as one function of its operands, and the law that joins its two spellings.

  For R rows: out (r, c) = (sum over k < 384 of agg (r, k) * w (k, c) + sum over k < 128 of feat (r, k) * loop (k, c)) + bias c,
  on the extended reals. Row r of the result depends on row r of agg and of feat only, so the function restricts to any
  block of rows.

  The kernel spells it with two matrix-unit products into zero accumulators, their operands first narrowed to bf16
  (the identity on the extended reals), added, and then the bias laid as a 1 x 128 row and repeated down the rows.
  The reference spells it with two host products, the bias vector laid as a row and repeated down the rows added to
  the FIRST product, and the second product added last: (P + b) + Q where the kernel has (P + Q) + b. Addition on the
  extended reals is commutative and associative whatever the operands, infinite ones included, so the two agree with
  no condition on the inputs.
-/
import proofs.«139443_j3728031613523_1_alg».proof.Proof.LibPlainDotAny
import Idealize.ShloMosaic.Lib.Pipeline.Value

noncomputable section

open scoped BigOperators

namespace Cert.DenseEpilogue

open Idealize.ShloMosaic Idealize.ShloMosaic.ValueIdx

/-- The epilogue over R rows, the bias given as a vector. -/
def dense (R : Nat) (agg : FVec Ideal ⟨2, ![R, 384]⟩ .f32) (w : FVec Ideal ⟨2, ![384, 128]⟩ .f32)
    (feat : FVec Ideal ⟨2, ![R, 128]⟩ .f32) (loop : FVec Ideal ⟨2, ![128, 128]⟩ .f32) (bias : FVec Ideal ⟨1, ![128]⟩ .f32) :
    FVec Ideal ⟨2, ![R, 128]⟩ .f32 :=
  fun j => (∑ k : Fin 384, agg (ix2 (j 0) k) * w (ix2 k (j 1)) + ∑ k : Fin 128, feat (ix2 (j 0) k) * loop (ix2 k (j 1)))
    + bias (ix1 (j 1))

/-- (P + b) + Q = (P + Q) + b on the extended reals: no finiteness is needed. -/
theorem regroup (P b Q : EReal) : (P + b) + Q = (P + Q) + b := add_right_comm P b Q

/-- A 1 x 128 row repeated down R rows, read at (p, q): the row at (0, q). -/
theorem row_down_apply (R : Nat) (row : FVec Ideal ⟨2, ![1, 128]⟩ .f32)
    (h : (⟨2, ![1, 128]⟩ : Shape).Broadcasts ⟨2, ![R, 128]⟩) (p : Fin R) (q : Fin 128) :
    broadcastTo ⟨2, ![R, 128]⟩ row h (ix2 p q) = row (ix2 0 q) :=
  broadcastTo_apply row h (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- A 128-vector laid as a 1 x 128 row and that row repeated down R rows, read at (p, q): the vector at q. -/
theorem vector_down_apply (R : Nat) (bias : FVec Ideal ⟨1, ![128]⟩ .f32)
    (h1 : (⟨1, ![128]⟩ : Shape).BroadcastsInDim ⟨2, ![1, 128]⟩ (![1] : Fin 1 → Fin 2))
    (h2 : (⟨2, ![1, 128]⟩ : Shape).BroadcastsInDim ⟨2, ![R, 128]⟩ (![0, 1] : Fin 2 → Fin 2)) (p : Fin R) (q : Fin 128) :
    broadcastInDim ⟨2, ![R, 128]⟩ ![0, 1] h2 (broadcastInDim ⟨2, ![1, 128]⟩ ![1] h1 bias) (ix2 p q) = bias (ix1 q) :=
  (broadcastInDim_apply ![0, 1] h2 (broadcastInDim ⟨2, ![1, 128]⟩ ![1] h1 bias) (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans
  (broadcastInDim_apply ![1] h1 bias (ix2 0 q) (ix1 q) (fun a => match a with
    | ⟨0, _⟩ => by show q.val = if (128 : Nat) = 1 then 0 else q.val; rw [if_neg (by decide)]))

/-- dense at explicit coordinates. -/
theorem dense_apply (R : Nat) (agg : FVec Ideal ⟨2, ![R, 384]⟩ .f32) (w : FVec Ideal ⟨2, ![384, 128]⟩ .f32)
    (feat : FVec Ideal ⟨2, ![R, 128]⟩ .f32) (loop : FVec Ideal ⟨2, ![128, 128]⟩ .f32) (bias : FVec Ideal ⟨1, ![128]⟩ .f32)
    (p : Fin R) (q : Fin 128) :
    dense R agg w feat loop bias (ix2 p q)
      = (∑ k : Fin 384, agg (ix2 p k) * w (ix2 k q) + ∑ k : Fin 128, feat (ix2 p k) * loop (ix2 k q)) + bias (ix1 q) := rfl

/-- THE KERNEL'S SPELLING over R rows is dense, when its bias row holds the bias vector. -/
theorem kernel_spelling (R : Nat) (agg : FVec Ideal ⟨2, ![R, 384]⟩ .f32) (w : FVec Ideal ⟨2, ![384, 128]⟩ .f32)
    (feat : FVec Ideal ⟨2, ![R, 128]⟩ .f32) (loop : FVec Ideal ⟨2, ![128, 128]⟩ .f32)
    (row : FVec Ideal ⟨2, ![1, 128]⟩ .f32) (bias : FVec Ideal ⟨1, ![128]⟩ .f32)
    (hrow : ∀ q : Fin 128, row (ix2 0 q) = bias (ix1 q))
    (hlt : FTy.bits .bf16 < FTy.bits .f32) (hb : (⟨2, ![1, 128]⟩ : Shape).Broadcasts ⟨2, ![R, 128]⟩) :
    addf (addf
        (matmul (DotDims.plain R 384 128) none (truncf .bf16 agg hlt) (truncf .bf16 w hlt) (constant ⟨2, ![R, 128]⟩ .f32 0x00000000#32))
        (matmul (DotDims.plain R 128 128) none (truncf .bf16 feat hlt) (truncf .bf16 loop hlt) (constant ⟨2, ![R, 128]⟩ .f32 0x00000000#32)))
      (broadcastTo ⟨2, ![R, 128]⟩ row hb)
      = dense R agg w feat loop bias := by
  funext j
  obtain ⟨p, q, rfl⟩ : ∃ (p : Fin R) (q : Fin 128), j = ix2 p q := ⟨j 0, j 1, eq_ix2 j⟩
  rw [addf_apply, addf_apply, row_down_apply, hrow, dense_apply]
  show FloatOps.matmul (DotDims.plain R 384 128) none (truncf .bf16 agg hlt) (truncf .bf16 w hlt) (constant ⟨2, ![R, 128]⟩ .f32 0x00000000#32) (ix2 p q)
      + FloatOps.matmul (DotDims.plain R 128 128) none (truncf .bf16 feat hlt) (truncf .bf16 loop hlt) (constant ⟨2, ![R, 128]⟩ .f32 0x00000000#32) (ix2 p q)
      + bias (ix1 q) = _
  rw [PlainDot.matmul_zero_apply_any, PlainDot.matmul_zero_apply_any]
  rfl

/-- THE REFERENCE'S SPELLING over R rows is dense: its two host products, the bias vector laid as a row and repeated
    down the rows added to the first, the second added last. -/
theorem reference_spelling (R : Nat) (agg : FVec Ideal ⟨2, ![R, 384]⟩ .f32) (w : FVec Ideal ⟨2, ![384, 128]⟩ .f32)
    (feat : FVec Ideal ⟨2, ![R, 128]⟩ .f32) (loop : FVec Ideal ⟨2, ![128, 128]⟩ .f32) (bias : FVec Ideal ⟨1, ![128]⟩ .f32)
    (h1 : (⟨1, ![128]⟩ : Shape).BroadcastsInDim ⟨2, ![1, 128]⟩ (![1] : Fin 1 → Fin 2))
    (h2 : (⟨2, ![1, 128]⟩ : Shape).BroadcastsInDim ⟨2, ![R, 128]⟩ (![0, 1] : Fin 2 → Fin 2)) :
    addf (addf (Host.dotGeneral (DotDims.plain R 384 128) none agg w)
        (broadcastInDim ⟨2, ![R, 128]⟩ ![0, 1] h2 (broadcastInDim ⟨2, ![1, 128]⟩ ![1] h1 bias)))
      (Host.dotGeneral (DotDims.plain R 128 128) none feat loop)
      = dense R agg w feat loop bias := by
  funext j
  obtain ⟨p, q, rfl⟩ : ∃ (p : Fin R) (q : Fin 128), j = ix2 p q := ⟨j 0, j 1, eq_ix2 j⟩
  rw [addf_apply, addf_apply, vector_down_apply, dense_apply]
  show FloatOps.dotGeneral (DotDims.plain R 384 128) none .single agg w (ix2 p q) + bias (ix1 q)
      + FloatOps.dotGeneral (DotDims.plain R 128 128) none .single feat loop (ix2 p q) = _
  rw [PlainDot.dotGeneral_apply_any, PlainDot.dotGeneral_apply_any, regroup]
  rfl

/-- A row of the result depends on that row of the two row-indexed operands only: if rows p' of (agg', feat') are rows
    p of (agg, feat), the results agree there. -/
theorem dense_of_rows {R' R : Nat} (agg' : FVec Ideal ⟨2, ![R', 384]⟩ .f32) (agg : FVec Ideal ⟨2, ![R, 384]⟩ .f32)
    (w : FVec Ideal ⟨2, ![384, 128]⟩ .f32) (feat' : FVec Ideal ⟨2, ![R', 128]⟩ .f32) (feat : FVec Ideal ⟨2, ![R, 128]⟩ .f32)
    (loop : FVec Ideal ⟨2, ![128, 128]⟩ .f32) (bias : FVec Ideal ⟨1, ![128]⟩ .f32) (p' : Fin R') (p : Fin R) (q : Fin 128)
    (hagg : ∀ k : Fin 384, agg' (ix2 p' k) = agg (ix2 p k)) (hfeat : ∀ k : Fin 128, feat' (ix2 p' k) = feat (ix2 p k)) :
    dense R' agg' w feat' loop bias (ix2 p' q) = dense R agg w feat loop bias (ix2 p q) := by
  rw [dense_apply, dense_apply]
  simp only [hagg, hfeat]

end Cert.DenseEpilogue

end
-- ==== Proof.IdealValue.lean ====
/-
  What the idealized kernel leaves in its result array.

  At block t the body is handed rows 4000 t .. 4000 t + 3999 of the aggregated features and of the features, and all
  of the stacked weights, the self-loop weights and the bias row; what it stores is the dense epilogue of those over
  4000 rows. A row of the epilogue depends on that row of the two row-indexed operands only, so the stored block is
  rows 4000 t .. 4000 t + 3999 of the epilogue over all 100000 rows. The 25 blocks tile the result array (row r lies in
  block r / 4000), so the array ends holding the epilogue of the arrays as the region found them.

  Those arrays are: the aggregated features and the stacked weights, the same host terms of the arguments the
  reference computes (named here by the reference's own stages, and never opened); the features and the self-loop
  weights, two arguments; and the bias row, whose entry (0, q) is entry q of the bias vector.
-/
import proofs.«139443_j3728031613523_1_alg».proof.Proof.IdealLaunch
import proofs.«139443_j3728031613523_1_alg».proof.Proof.DenseSpec
import proofs.«139443_j3728031613523_1_alg».proof.Proof.Gen.ReferenceIdeal.Read
import Idealize.ShloMosaic.Lib.StableHlo.Run

set_option maxRecDepth 16384

noncomputable section

namespace Cert.KernelIdeal.EpilogueValue

open Cert.KernelIdeal Cert.KernelIdeal.Gen Cert.KernelIdeal.Epilogue Cert.DenseEpilogue
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The arrays the region reads, at their literal types -/

abbrev aggArr (c : Dev nD) : FVec Ideal S100000x384 .f32 := entry m c main_v26
abbrev wArr (c : Dev nD) : FVec Ideal S384x128 .f32 := entry m c main_v27
abbrev featArr (c : Dev nD) : FVec Ideal S100000x128 .f32 := entry m c main_arg0
abbrev loopArr (c : Dev nD) : FVec Ideal S128x128 .f32 := entry m c main_arg4
abbrev rowArr (c : Dev nD) : FVec Ideal S1x128 .f32 := entry m c main_v28
/-- The bias vector as launched. -/
abbrev biasVec (c : Dev nD) : FVec Ideal S128 .f32 := m ((c : Thread nD τ).loc main_arg3)

/-- The result array after the run: the epilogue of the arrays as the region found them. -/
abbrev whole (c : Dev nD) : FVec Ideal S100000x128 .f32 :=
  dense 100000 (aggArr m c) (wArr m c) (featArr m c) (loopArr m c) (biasVec m c)

/-! ## The host terms behind three of them -/

/-- The aggregated features are the reference's own stage of the arguments. -/
theorem aggArr_eq (c : Dev nD) : aggArr m c
    = Cert.ReferenceIdeal.Read.val_main_v26 (F := Ideal) (m ((c : Thread nD τ).loc main_arg0)) (m ((c : Thread nD τ).loc main_arg1))
        (m ((c : Thread nD τ).loc main_arg5)) (m ((c : Thread nD τ).loc main_arg6)) (m ((c : Thread nD τ).loc main_arg7)) := by
  dsimp only [aggArr, entry, hostOps0]; after_results_simp <;> rfl

/-- The stacked weights are the reference's own stage of the weight tensor. -/
theorem wArr_eq (c : Dev nD) : wArr m c
    = Cert.ReferenceIdeal.Read.val_main_v27 (F := Ideal) (m ((c : Thread nD τ).loc main_arg2)) := by
  dsimp only [wArr, entry, hostOps0]; after_results; rfl

/-- The bias row is the bias vector recast as 1 x 128; -/
theorem rowArr_eq (c : Dev nD) : rowArr m c = shapeCast S1x128 (biasVec m c) shapeCasts_S128_S1x128 := by
  dsimp only [rowArr, biasVec, entry, hostOps0]; after_results; rfl

/-- so its entry (0, q) is entry q of the vector: both sit at row-major position q. -/
theorem rowArr_apply (c : Dev nD) (q : Fin 128) : rowArr m c (ix2 0 q) = biasVec m c (ix1 q) := by
  rw [rowArr_eq]
  exact shapeCast_apply (biasVec m c) shapeCasts_S128_S1x128 (ix2 0 q) (ix1 q)
    (by rewrite [Shape.rowMajor_val_one, Shape.rowMajor_val_two]; show q.val = 0 * 128 + q.val; omega)

/-! ## What the body stores, over 4000 rows -/

/-- The body's stored value is the epilogue over the 4000 rows it was handed, whenever its bias row holds the bias
    vector: its shape casts are to the same shape, and its two products are plain 4000 x K by K x 128 products. -/
theorem payload_eq (v0 : Vec Ideal S4000x384 .f32) (v3 : Vec Ideal S384x128 .f32) (v7 : Vec Ideal S4000x128 .f32)
    (v9 : Vec Ideal S128x128 .f32) (v13 : Vec Ideal S1x128 .f32) (bias : FVec Ideal S128 .f32)
    (hrow : ∀ q : Fin 128, v13 (ix2 0 q) = bias (ix1 q)) :
    k0_pay1 (F := Ideal) v0 v3 v7 v9 v13 = dense 4000 v0 v3 v7 v9 bias := by
  unfold k0_pay1
  simp only [shapeCast_self]
  exact kernel_spelling 4000 v0 v3 v7 v9 v13 bias hrow bitsLt_bf16_f32 broadcasts_S1x128_S4000x128

/-! ## Where each block sits in its array -/

theorem origin : (![0, 0] : Fin 2 → Nat) = fun _ => 0 := funext fun a => by fin_cases a <;> rfl

/-- The index maps over the 25 points: the three row-blocked windows are at block row t, everything else at 0. -/
theorem block_rows : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is row 4000 t + p of the array. -/
def rowOf (t : Fin cfg0.N) (p : Fin 4000) : Fin 100000 :=
  ⟨4000 * t.val + p.val, by have ht : t.val < 25 := Nat.lt_of_lt_of_eq t.isLt N_0
                            have hp := p.isLt; omega⟩

/-- Block t of the aggregated features, at (p, k): the array at (4000 t + p, k). -/
theorem aggBlk_apply (c : Dev nD) (t : Fin cfg0.N) (p : Fin 4000) (k : Fin 384) :
    (blockOf m c 0 t : S4000x384.Idx → EReal) (ix2 p k) = aggArr m c (ix2 (rowOf t p) k) := by
  obtain ⟨e00, e01, -⟩ := block_rows t
  show aggArr m c (((cfg0.win 0).blk t).view.emb (ix2 p k)) = _
  refine congrArg (aggArr m c) (funext fun a => Fin.ext ?_)
  match a with
  | ⟨0, _⟩ => show win0_0.index t (0 : Fin 2) * 4000 + 1 * p.val = 4000 * t.val + p.val; rw [e00]; omega
  | ⟨1, _⟩ => show win0_0.index t (1 : Fin 2) * 384 + 1 * k.val = k.val; rw [e01]; omega

/-- Block t of the features, at (p, k): the array at (4000 t + p, k). -/
theorem featBlk_apply (c : Dev nD) (t : Fin cfg0.N) (p : Fin 4000) (k : Fin 128) :
    (blockOf m c 2 t : S4000x128.Idx → EReal) (ix2 p k) = featArr m c (ix2 (rowOf t p) k) := by
  obtain ⟨-, -, -, -, e20, e21, -⟩ := block_rows t
  show featArr m c (((cfg0.win 2).blk t).view.emb (ix2 p k)) = _
  refine congrArg (featArr m c) (funext fun a => Fin.ext ?_)
  match a with
  | ⟨0, _⟩ => show win0_2.index t (0 : Fin 2) * 4000 + 1 * p.val = 4000 * t.val + p.val; rw [e20]; omega
  | ⟨1, _⟩ => show win0_2.index t (1 : Fin 2) * 128 + 1 * k.val = k.val; rw [e21]; omega

/-- The stacked weights' one block is the whole array. -/
theorem wBlk_eq (c : Dev nD) (t : Fin cfg0.N) : (blockOf m c 1 t : S384x128.Idx → EReal) = wArr m c := by
  obtain ⟨-, -, e10, e11, -⟩ := block_rows t
  funext y
  show wArr m c (((cfg0.win 1).blk t).view.emb y) = wArr m c y
  refine congrArg (wArr m c) (funext fun a => Fin.ext ?_)
  match a with
  | ⟨0, _⟩ => show win0_1.index t (0 : Fin 2) * 384 + 1 * (y 0).val = (y 0).val; rw [e10]; omega
  | ⟨1, _⟩ => show win0_1.index t (1 : Fin 2) * 128 + 1 * (y 1).val = (y 1).val; rw [e11]; omega

/-- The self-loop weights' one block is the whole array. -/
theorem loopBlk_eq (c : Dev nD) (t : Fin cfg0.N) : (blockOf m c 3 t : S128x128.Idx → EReal) = loopArr m c := by
  obtain ⟨-, -, -, -, -, -, e30, e31, -⟩ := block_rows t
  funext y
  show loopArr m c (((cfg0.win 3).blk t).view.emb y) = loopArr m c y
  refine congrArg (loopArr m c) (funext fun a => Fin.ext ?_)
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-- The bias row's one block is the whole row. -/
theorem rowBlk_eq (c : Dev nD) (t : Fin cfg0.N) : (blockOf m c 4 t : S1x128.Idx → EReal) = rowArr m c := by
  obtain ⟨-, -, -, -, -, -, -, -, e40, e41, -⟩ := block_rows t
  funext y
  show rowArr m c (((cfg0.win 4).blk t).view.emb y) = rowArr m c y
  refine congrArg (rowArr m c) (funext fun a => Fin.ext ?_)
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

/-- Entry (p, q) of the result's block t is entry (4000 t + p, q) of the result array. -/
theorem outBlk_emb (t : Fin cfg0.N) (p : Fin 4000) (q : Fin 128) :
    ((cfg0.win 5).blk t).view.emb (ix2 p q) = (ix2 (rowOf t p) q : S100000x128.Idx) := by
  obtain ⟨-, -, -, -, -, -, -, -, -, -, e50, e51⟩ := block_rows t
  funext a; apply Fin.ext
  match a with
  | ⟨0, _⟩ => show win0_5.index t (0 : Fin 2) * 4000 + 1 * p.val = 4000 * t.val + p.val; rw [e50]; omega
  | ⟨1, _⟩ => show win0_5.index t (1 : Fin 2) * 128 + 1 * q.val = q.val; rw [e51]; omega

/-! ## Block by block, then the array -/

/-- What the body stores at point t, at (p, q): the epilogue over all rows at (4000 t + p, q). -/
theorem stored_apply (c : Dev nD) (t : Fin cfg0.N) (p : Fin 4000) (q : Fin 128) :
    stored (F := Ideal) (blockOf m c 0 t) (blockOf m c 1 t) (blockOf m c 2 t) (blockOf m c 3 t) (blockOf m c 4 t) (ix2 p q)
      = whole m c (ix2 (rowOf t p) q) := by
  unfold stored
  rw [View.canon_unit_zero origin]
  simp only [View.ld_unit_zero (S := S4000x384) origin, View.ld_unit_zero (S := S384x128) origin,
    View.ld_unit_zero (S := S4000x128) origin, View.ld_unit_zero (S := S128x128) origin, View.ld_unit_zero (S := S1x128) origin]
  rw [wBlk_eq, loopBlk_eq, rowBlk_eq]
  refine (congrFun (payload_eq (blockOf m c 0 t) (wArr m c) (blockOf m c 2 t) (loopArr m c) (rowArr m c) (biasVec m c)
    (rowArr_apply m c)) (ix2 p q)).trans ?_
  exact dense_of_rows (blockOf m c 0 t) (aggArr m c) (wArr m c) (blockOf m c 2 t) (featArr m c) (loopArr m c) (biasVec m c)
    p (rowOf t p) q (aggBlk_apply m c t p) (featBlk_apply m c t p)

/-- WHAT POINT t WRITES BACK is block t of the epilogue over all rows. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [left5]
  funext y
  obtain ⟨p, q, rfl⟩ : ∃ (p : Fin 4000) (q : Fin 128), y = ix2 p q := ⟨y 0, y 1, eq_ix2 y⟩
  show stored (F := Ideal) (blockOf m c 0 t) (blockOf m c 1 t) (blockOf m c 2 t) (blockOf m c 3 t) (blockOf m c 4 t) (ix2 p q)
    = whole m c (((cfg0.win 5).blk t).view.emb (ix2 p q))
  rw [outBlk_emb]
  exact stored_apply m c t p q

/-- An index of the result array is in point t's block iff each coordinate is in the block's range on its axis. -/
theorem mem_outBlk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v29).slice (win0_5.rect t)).set ↔ _
  rw [View.set_slice_whole, Rect.mem_set_unit]
  exact Iff.rfl

/-- The 25 blocks cover the result array: row r lies in block r / 4000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨-, -, -, -, -, -, -, -, -, -, e50, e51⟩ := block_rows t
  have ht : t.val = (i 0).val / 4000 := rfl
  refine ⟨t, flush0_5 t, ?_⟩
  rw [mem_outBlk]
  intro a
  match a with
  | ⟨0, _⟩ => show win0_5.index t (0 : Fin 2) * 4000 ≤ (i 0).val ∧ (i 0).val < win0_5.index t (0 : Fin 2) * 4000 + 4000; rw [e50, ht]; omega
  | ⟨1, _⟩ => show win0_5.index t (1 : Fin 2) * 128 ≤ (i 1).val ∧ (i 1).val < win0_5.index t (1 : Fin 2) * 128 + 128; rw [e51]; omega

/-- THE RESULT ARRAY after the run. -/
theorem final (c : Dev nD) : (dats m 0 c).arrAt 5 cfg0.N = whole m c :=
  (dats m 0 c).arrAt_eq_of_cover 5 (whole m c) (fun t _ => flushed_eq m c t) (covered)

/-! ## The result in the arguments, and the run -/

/-- The epilogue of the reference's own stages of the arguments, and of three arguments. -/
def result (x0 : FVec Ideal S100000x128 .f32) (x1 : FVec Ideal S8x2 .f32) (x2 : FVec Ideal S3x128x128 .f32)
    (x3 : FVec Ideal S128 .f32) (x4 : FVec Ideal S128x128 .f32) (x5 x6 x7 : IVec S1600000 32) : FVec Ideal S100000x128 .f32 :=
  dense 100000 (Cert.ReferenceIdeal.Read.val_main_v26 (F := Ideal) x0 x1 x5 x6 x7)
    (Cert.ReferenceIdeal.Read.val_main_v27 (F := Ideal) x2) x0 x4 x3

/-- The array's final contents, in the launch contents of the arguments. -/
theorem whole_eq (c : Dev nD) : whole m c
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold whole result
  rw [aggArr_eq, wArr_eq, show featArr m c = m ((c : Thread nD τ).loc main_arg0) from entry_arg0 m c,
    show loopArr m c = m ((c : Thread nD τ).loc main_arg4) from entry_arg4 m c]

/-- Every weakly fair execution ends with the result array at result of the arguments, and the arguments as
    launched. -/
theorem run : θ_run defs (onTc (τ := τ) (main (F := Ideal))) ⟨m, fun _ => 0, ρ⟩ (fun r => ∀ c : Dev nD,
      r.2.mem ((c.tc : Thread nD τ).loc main_v29)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 5).trans ((final m c).trans (whole_eq m c)),
     ((h c).1 2).trans (((dats m 0 c).arrAt_in 2 rfl _).trans ((dats_A m c 2).trans (entry_arg0 m c))),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 3).trans (((dats m 0 c).arrAt_in 3 rfl _).trans ((dats_A m c 3).trans (entry_arg4 m c))),
     ((h c).2 main_arg5 (Pipeline.mem_restRefs_of main_arg5 (by decide) (by decide))).trans (entry_arg5 m c),
     ((h c).2 main_arg6 (Pipeline.mem_restRefs_of main_arg6 (by decide) (by decide))).trans (entry_arg6 m c),
     ((h c).2 main_arg7 (Pipeline.mem_restRefs_of main_arg7 (by decide) (by decide))).trans (entry_arg7 m c)⟩)
    (run_main m ρ)

end Cert.KernelIdeal.EpilogueValue

end
-- ==== Proof.RefValue.lean ====
/-
  The reference's result is the dense epilogue of its own earlier stages.

  After the aggregated features (stage 26) and the stacked weights (stage 27), the reference takes their product, adds
  the bias vector laid as a row and repeated down the rows, and then adds the product of the features with the
  self-loop weights. That is the reference's spelling of the epilogue over all 100000 rows, which regroups to the
  kernel's by commutativity and associativity of addition on the extended reals.
-/
import proofs.«139443_j3728031613523_1_alg».proof.Proof.IdealValue

noncomputable section

namespace Cert.ReferenceIdeal.RefValue

open Cert.ReferenceIdeal Cert.ReferenceIdeal.Gen Cert.ReferenceIdeal.Read Cert.DenseEpilogue
open Idealize.ShloMosaic Idealize.ShloMosaic.TcCoe Idealize.SL.Sem

/-- The reference's last stage, as a function of the eight arguments, is the kernel's result of them. -/
theorem last_stage_eq (x0 : (⟨S100000x128, .f32⟩ : BufTy).Contents (Elt Ideal)) (x1 : (⟨S8x2, .f32⟩ : BufTy).Contents (Elt Ideal))
    (x2 : (⟨S3x128x128, .f32⟩ : BufTy).Contents (Elt Ideal)) (x3 : (⟨S128, .f32⟩ : BufTy).Contents (Elt Ideal))
    (x4 : (⟨S128x128, .f32⟩ : BufTy).Contents (Elt Ideal)) (x5 x6 x7 : (⟨S1600000, .i32⟩ : BufTy).Contents (Elt Ideal)) :
    val_main_v33 (F := Ideal) x0 x1 x2 x3 x4 x5 x6 x7 = Cert.KernelIdeal.EpilogueValue.result x0 x1 x2 x3 x4 x5 x6 x7 := by
  unfold val_main_v33 val_main_v31 val_main_v28 val_main_v30 val_main_v29 val_main_v32 Cert.KernelIdeal.EpilogueValue.result
  exact reference_spelling 100000 (val_main_v26 (F := Ideal) x0 x1 x5 x6 x7) (val_main_v27 (F := Ideal) x2) x0 x4 x3
    bcast_S128_S1x128_1 bcast_S1x128_S100000x128_0_1

end Cert.ReferenceIdeal.RefValue

end
-- ==== Proof.lean ====
/-
  The certificate of the relational graph layer's dense epilogue against its jnp reference.

  Both programs compute, by the same host operations on the same arguments, the aggregated features: each node's own
  128 features beside two 128-wide sums, over the edges arriving at the node, of the source node's features weighted
  by the edge type's basis coefficient. Both then apply the dense epilogue to them:

      out (r, c) = sum over k < 384 of agg (r, k) * W (k, c)  +  sum over k < 128 of feat (r, k) * loop (k, c)  +  bias c.

  The kernel does so in one pipelined region over 25 blocks of 4000 rows, feeding its matrix unit operands narrowed
  to bf16 and adding the bias last; the reference with two host products, adding the bias between them. Read on the
  extended reals a change of float format is the identity, both products are the same sums, and the two orders of the
  three-term addition agree by commutativity and associativity alone, so the results are equal for every input: the
  precondition is never used. The ideal pass rewrote nothing, so that the idealized kernel is the kernel's sanctioned
  idealization has nothing to state.

  Each kernel program runs to the end, faults nowhere and returns its arguments as launched because no host operation
  writes an argument and the region only reads the two arguments it stages; the reference because it is a list of
  host operations.
-/
import proofs.«139443_j3728031613523_1_alg».proof.Defs
import proofs.«139443_j3728031613523_1_alg».proof.Proof.Gen.Kernel
import proofs.«139443_j3728031613523_1_alg».proof.Proof.Gen.KernelIdeal
import proofs.«139443_j3728031613523_1_alg».proof.Proof.Gen.ReferenceIdeal
import proofs.«139443_j3728031613523_1_alg».proof.Proof.Gen.Pre_finite_inputs
import proofs.«139443_j3728031613523_1_alg».proof.Proof.Gen.ReferenceIdeal.Run
import proofs.«139443_j3728031613523_1_alg».proof.Proof.Gen.ReferenceIdeal.Read
import proofs.«139443_j3728031613523_1_alg».proof.Proof.BitsLaunch
import proofs.«139443_j3728031613523_1_alg».proof.Proof.IdealValue
import proofs.«139443_j3728031613523_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and returns its arguments. -/
theorem frame_kernel : Cert.frame_Kernel := fun m ρ _ => Cert.Kernel.Epilogue.frame m ρ

/-- The idealized kernel runs and returns its arguments. -/
theorem frame_kernelIdeal : Cert.frame_KernelIdeal := fun m ρ _ => Cert.KernelIdeal.Epilogue.frame m ρ

/-- The reference runs and returns its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's last stage both end at
    the dense epilogue of the same stages of the same arguments. -/
theorem algebraic : Cert.algebraic_KernelIdeal_ReferenceIdeal := by
  intro m ρ m' ρ' _ hagree
  refine ⟨_, Cert.KernelIdeal.EpilogueValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v33_eq _ _ _ _ _ _ _ _).trans (Cert.ReferenceIdeal.RefValue.last_stage_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
